-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 17
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S1024x4x1024, .f32⟩
  | .hbm, ⟨8, _⟩ => ⟨S1024x4096, .f32⟩
  | .hbm, ⟨9, _⟩ => ⟨S1024x4096, .bf16⟩
  | .hbm, ⟨10, _⟩ => ⟨S1024x4x1024, .f32⟩
  | .hbm, ⟨11, _⟩ => ⟨S1024x4096, .f32⟩
  | .hbm, ⟨12, _⟩ => ⟨S1024x4096, .bf16⟩
  | .hbm, ⟨13, _⟩ => ⟨S1x4096, .f32⟩
  | .hbm, ⟨14, _⟩ => ⟨S1x4096, .f32⟩
  | .hbm, ⟨15, _⟩ => ⟨S16384x1024, .f32⟩
  | .hbm, ⟨16, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x4096, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S4x1024x16384 : Shape := ⟨3, ![4, 1024, 16384]⟩
abbrev S4x16384x1024 : Shape := ⟨3, ![4, 16384, 1024]⟩
abbrev S4x1x1024 : Shape := ⟨3, ![4, 1, 1024]⟩
abbrev S1x16384x1024 : Shape := ⟨3, ![1, 16384, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x16384, .f32⟩
  | .hbm, ⟨8, _⟩ => ⟨S4x16384x1024, .f32⟩
  | .hbm, ⟨9, _⟩ => ⟨S4x1x1024, .f32⟩
  | .hbm, ⟨10, _⟩ => ⟨S4x16384x1024, .f32⟩
  | .hbm, ⟨11, _⟩ => ⟨S4x16384x1024, .f32⟩
  | .hbm, ⟨12, _⟩ => ⟨S4x1024x16384, .f32⟩
  | .hbm, ⟨13, _⟩ => ⟨S4x16384x1024, .f32⟩
  | .hbm, ⟨14, _⟩ => ⟨S4x1x1024, .f32⟩
  | .hbm, ⟨15, _⟩ => ⟨S4x16384x1024, .f32⟩
  | .hbm, ⟨16, _⟩ => ⟨S4x16384x1024, .f32⟩
  | .hbm, ⟨17, _⟩ => ⟨S4x16384x1024, .f32⟩
  | .hbm, ⟨18, _⟩ => ⟨S1x16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S1x16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S1x16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S1x16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x1024x16384_S4x16384x1024_0_2_1 : S4x1024x16384.Transposes [0, 2, 1] S4x16384x1024
  bcast_S4x1024_S4x1x1024_0_2 : S4x1024.BroadcastsInDim S4x1x1024 (![0, 2] : Fin 2 → Fin S4x1x1024.rank)
  bcast_S4x1x1024_S4x16384x1024_0_1_2 : S4x1x1024.BroadcastsInDim S4x16384x1024 (![0, 1, 2] : Fin 3 → Fin S4x16384x1024.rank)
  slices_S4x16384x1024_S1x16384x1024_0_0_0 : S4x16384x1024.Slices ![0, 0, 0] S1x16384x1024
  shapeCasts_S1x16384x1024_S16384x1024 : S1x16384x1024.ShapeCasts S16384x1024
  bcast_S_S16384x1024 : S_.BroadcastsInDim S16384x1024 (![] : Fin 0 → Fin S16384x1024.rank)
  slices_S4x16384x1024_S1x16384x1024_1_0_0 : S4x16384x1024.Slices ![1, 0, 0] S1x16384x1024
  slices_S4x16384x1024_S1x16384x1024_2_0_0 : S4x16384x1024.Slices ![2, 0, 0] S1x16384x1024
  slices_S4x16384x1024_S1x16384x1024_3_0_0 : S4x16384x1024.Slices ![3, 0, 0] S1x16384x1024
  dot_S4x1024x1024_S16384x1024_S4x1024x16384_2_1_01_0_n_n_wf : DotDims.WF S4x1024x1024 S16384x1024 S4x1024x16384 [2] [1] [0, 1] [0] [] []

variable [Facts₀]

def dot_S4x1024x1024_S16384x1024_S4x1024x16384_2_1_01_0_n_n : DotDims S4x1024x1024 S16384x1024 S4x1024x16384 where
  lhsContracting := [2]
  rhsContracting := [1]
  lhsNonContracting := [0, 1]
  rhsNonContracting := [0]
  lhsBatch := []
  rhsBatch := []
  wf := dot_S4x1024x1024_S16384x1024_S4x1024x16384_2_1_01_0_n_n_wf

class Facts : Prop extends Facts₀ where

variable [Facts]
-- ==== Proof.KernelGates.lean ====
/-
  The kernel body's pre-activation block, read at an index.

  At a grid point the body holds a 256-row block of the input `xb` and of the hidden state `hb`, the two packed weight
  matrices `wx`, `wh` (1024 × 4096: column `n` is gate `n / 1024`, state unit `n % 1024`) and the two packed bias rows
  `bxr`, `bhr` (1 × 4096). Its pre-activation block is the two matrix products into a zero accumulator, added, then the
  two bias rows broadcast down the rows and added one after the other. On the extended reals the element at row `r`,
  column `n` is therefore
      ((Σ_k xb[r,k] · wx[k,n]) + (Σ_k hb[r,k] · wh[k,n])) + bxr[0,n] + bhr[0,n]:
  a change of float format is the identity, a matrix product into zero is the plain sum over the contracted axis, a shape
  cast to the same shape is the identity, and the broadcast of a row reads the row.
-/
import proofs.«118456_j11759620456639_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gates

open Cert.KernelIdeal Cert.KernelIdeal.Gen Idealize.ShloMosaic Idealize.ShloMosaic.ValueIdx

/-! ## The matrix product's operand indices: rows of the left operand, columns of the right -/

theorem lhs_rowcol_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_rowcol_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_rowcol_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_rowcol_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A 256×1024 by 1024×4096 product into the zero accumulator, at row `r` and column `n`: the sum over the 1024
    contracted positions of the row's entry times the column's. -/
theorem product_apply (L : FVec Ideal S256x1024 .bf16) (R : FVec Ideal S1024x4096 .bf16) (r : Fin 256) (n : Fin 4096) :
    matmul (F := Ideal) dot_S256x1024_S1024x4096_S256x4096_1_0_0_1_n_n none L R (constant (F := Ideal) S256x4096 .f32 0x00000000#32) (ix2 r n)
      = ∑ k : Fin 1024, L (ix2 r k) * R (ix2 k n) := by
  refine (Ideal.matmul_constant_zero_apply dot_S256x1024_S1024x4096_S256x4096_1_0_0_1_n_n none L R (ix2 r n)).trans ?_
  rw [← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 r n) ((ValueIdx.contrEquiv1 dot_S256x1024_S1024x4096_S256x4096_1_0_0_1_n_n 1024 rfl rfl).symm k) = ix2 r k := funext fun a => Fin.ext (by
    match a with
    | ⟨0, _⟩ => exact lhs_rowcol_0 _ _
    | ⟨1, _⟩ => exact (lhs_rowcol_1 _ _).trans hk)
  have er : dot_S256x1024_S1024x4096_S256x4096_1_0_0_1_n_n.rhsIdx (ix2 r n) ((ValueIdx.contrEquiv1 dot_S256x1024_S1024x4096_S256x4096_1_0_0_1_n_n 1024 rfl rfl).symm k) = ix2 k n := funext fun a => Fin.ext (by
    match a with
    | ⟨0, _⟩ => exact (rhs_rowcol_0 _ _).trans hk
    | ⟨1, _⟩ => exact rhs_rowcol_1 _ _)
  rw [el, er]

/-- The body's pre-activation block at row `r`, column `n`: both products' sums, then the two bias rows' entries. -/
theorem preact_apply (xb hb : Vec Ideal S256x1024 .f32) (wx wh : Vec Ideal S1024x4096 .bf16) (bxr bhr : Vec Ideal S1x4096 .f32)
    (r : Fin 256) (n : Fin 4096) :
    k0_pay1 (F := Ideal) xb hb wx wh bxr bhr (ix2 r n)
      = (((∑ k : Fin 1024, xb (ix2 r k) * wx (ix2 k n)) + (∑ k : Fin 1024, hb (ix2 r k) * wh (ix2 k n))) + bxr (ix2 (0 : Fin 1) n))
          + bhr (ix2 (0 : Fin 1) n) := by
  unfold k0_pay1
  simp only [shapeCast_self]
  show (matmul (F := Ideal) dot_S256x1024_S1024x4096_S256x4096_1_0_0_1_n_n none _ _ (constant (F := Ideal) S256x4096 .f32 0x00000000#32) (ix2 r n)
      + matmul (F := Ideal) dot_S256x1024_S1024x4096_S256x4096_1_0_0_1_n_n none _ _ (constant (F := Ideal) S256x4096 .f32 0x00000000#32) (ix2 r n)
      + broadcastTo S256x4096 bxr broadcasts_S1x4096_S256x4096 (ix2 r n))
      + broadcastTo S256x4096 bhr broadcasts_S1x4096_S256x4096 (ix2 r n) = _
  rw [product_apply, product_apply, broadcastTo_1b_ab_apply, broadcastTo_1b_ab_apply]
  rfl

end Cert.KernelIdeal.Gates

end
-- ==== Proof.HostPacking.lean ====
/-
  The packed operands the kernel region is launched with, read at an index.

  Before the region the program packs each weight tensor `W` (gate × state unit × input feature) into a 1024 × 4096
  matrix — transpose to (feature, gate, unit), flatten the last two axes, narrow the format (the identity on the
  extended reals) — so that its entry at row `k`, column `n = g · 1024 + s` is `W[g, s, k]`; and each bias (gate × unit) into
  a 1 × 4096 row whose entry at column `n = g · 1024 + s` is the bias's `[g, s]`.
-/
import proofs.«118456_j11759620456639_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Packing

open Cert.KernelIdeal Cert.KernelIdeal.Gen Idealize.ShloMosaic Idealize.ShloMosaic.TcCoe Idealize.ShloMosaic.ValueIdx Idealize.SL.Sem

/-- A weight tensor packed: transposed to (feature, gate, unit), flattened to 1024 × 4096, narrowed. -/
def packWeight (W : FVec Ideal S4x1024x1024 .f32) : FVec Ideal S1024x4096 .bf16 :=
  truncf (F := Ideal) .bf16 (shapeCast S1024x4096 (transpose S1024x4x1024 [2, 0, 1] W transposes_S4x1024x1024_S1024x4x1024_2_0_1) shapeCasts_S1024x4x1024_S1024x4096) bitsLt_bf16_f32

/-- A bias packed: flattened to one row of 4096. -/
def packBias (b : FVec Ideal S4x1024 .f32) : FVec Ideal S1x4096 .f32 :=
  shapeCast S1x4096 b shapeCasts_S4x1024_S1x4096

/-- The packed weight at row `k`, column `g · 1024 + s`, is the tensor's entry for gate `g`, unit `s`, feature `k`. -/
theorem packWeight_apply (W : FVec Ideal S4x1024x1024 .f32) (k : Fin 1024) (g : Fin 4) (s : Fin 1024) (n : Fin 4096)
    (hn : n.val = g.val * 1024 + s.val) : packWeight W (ix2 k n) = W (ix3 g s k) := by
  unfold packWeight
  show shapeCast S1024x4096 (transpose S1024x4x1024 [2, 0, 1] W transposes_S4x1024x1024_S1024x4x1024_2_0_1) shapeCasts_S1024x4x1024_S1024x4096 (ix2 k n) = _
  refine (shapeCast_apply _ shapeCasts_S1024x4x1024_S1024x4096 (ix2 k n) (ix3 k g s) (by
    rewrite [Shape.rowMajor_val_three, Shape.rowMajor_val_two]
    have hk : k.val < 1024 := k.isLt
    have hg : g.val < 4 := g.isLt
    have hs : s.val < 1024 := s.isLt
    show (k.val * 4 + g.val) * 1024 + s.val = k.val * 4096 + n.val
    omega)).trans ?_
  exact transpose_apply [2, 0, 1] W transposes_S4x1024x1024_S1024x4x1024_2_0_1 (ix3 k g s) (ix3 g s k) (fun b => match b with
    | ⟨0, _⟩ => rfl
    | ⟨1, _⟩ => rfl
    | ⟨2, _⟩ => rfl)

/-- The packed bias at column `g · 1024 + s` is the bias's entry for gate `g`, unit `s`. -/
theorem packBias_apply (b : FVec Ideal S4x1024 .f32) (g : Fin 4) (s : Fin 1024) (n : Fin 4096)
    (hn : n.val = g.val * 1024 + s.val) : packBias b (ix2 (0 : Fin 1) n) = b (ix2 g s) := by
  unfold packBias
  exact shapeCast_apply _ shapeCasts_S4x1024_S1x4096 (ix2 (0 : Fin 1) n) (ix2 g s) (by
    rewrite [Shape.rowMajor_val_two, Shape.rowMajor_val_two]
    have hg : g.val < 4 := g.isLt
    have hs : s.val < 1024 := s.isLt
    show g.val * 1024 + s.val = 0 * 4096 + n.val
    omega)

variable (m : (ℓ : Loc nD τ sig) → Buf (Elt Ideal) ℓ)

/-- The region finds the packed input weights in its fourth operand's array, -/
theorem V_packedWx (c : Dev nD) : (V m c main_v2 : S1024x4096.Idx → EReal) = packWeight (m ((c : Thread nD τ).loc main_arg3)) := by
  dsimp only [Gen.V, Gen.hostOps0]; after_results; rfl

/-- the packed recurrent weights in its fifth, -/
theorem V_packedWh (c : Dev nD) : (V m c main_v5 : S1024x4096.Idx → EReal) = packWeight (m ((c : Thread nD τ).loc main_arg5)) := by
  dsimp only [Gen.V, Gen.hostOps0]; after_results; rfl

/-- the packed input bias in its sixth, -/
theorem V_packedBx (c : Dev nD) : (V m c main_v6 : S1x4096.Idx → EReal) = packBias (m ((c : Thread nD τ).loc main_arg4)) := by
  dsimp only [Gen.V, Gen.hostOps0]; after_results; rfl

/-- and the packed recurrent bias in its seventh. -/
theorem V_packedBh (c : Dev nD) : (V m c main_v7 : S1x4096.Idx → EReal) = packBias (m ((c : Thread nD τ).loc main_arg6)) := by
  dsimp only [Gen.V, Gen.hostOps0]; after_results; rfl

end Cert.KernelIdeal.Packing

end
-- ==== Proof.LstmSpec.lean ====
/-
  The LSTM cell as one function of its seven argument arrays, index by index, on the extended reals.

  For batch row `b`, gate `g` (0 forget, 1 input, 2 candidate, 3 output) and state unit `s` the gate's
  pre-activation is
      a g b s = (Σ_k Wx[g,s,k] · x[b,k] + bx[g,s]) + (Σ_k Wh[g,s,k] · h[b,k] + bh[g,s]),
  the new cell state is  c'[b,s] = c[b,s] · σ(a 0 b s) + σ(a 1 b s) · tanh(a 2 b s)  and the new hidden state is
  h'[b,s] = tanh(c'[b,s]) · σ(a 3 b s), with σ the logistic function `1 / (1 + e^(-y))` and every operation the
  exact one on the extended reals.

  The same pre-activation grouped the other way — both matrix products first, with the factors of each product
  swapped, then the two biases one after the other — is the same extended real: addition and multiplication on the
  extended reals are commutative and associative (no distributivity or cancellation is used, so no finiteness).
-/
import Idealize.ShloMosaic.PureOps.Ideal
import Idealize.ShloMosaic.PureOps.Ideal.Laws
import Idealize.ShloMosaic.Lib.ValueIdx

noncomputable section

namespace Cert.LstmCell

open Idealize.ShloMosaic Idealize.ShloMosaic.ValueIdx

/-- Batch rows by features: the three activations and the two results. -/
abbrev SAct : Shape := ⟨2, ![16384, 1024]⟩
/-- Gate by state unit by input feature: the two weight tensors. -/
abbrev SWeight : Shape := ⟨3, ![4, 1024, 1024]⟩
/-- Gate by state unit: the two biases. -/
abbrev SBias : Shape := ⟨2, ![4, 1024]⟩

variable (x c h : SAct.Idx → EReal) (Wx : SWeight.Idx → EReal) (bx : SBias.Idx → EReal) (Wh : SWeight.Idx → EReal) (bh : SBias.Idx → EReal)

/-- Gate `g`'s pre-activation at batch row `b` and state unit `s`: the input's and the hidden state's affine maps, added. -/
def gate (g : Fin 4) (b : Fin 16384) (s : Fin 1024) : EReal :=
  ((∑ k : Fin 1024, Wx (ix3 g s k) * x (ix2 b k)) + bx (ix2 g s))
    + ((∑ k : Fin 1024, Wh (ix3 g s k) * h (ix2 b k)) + bh (ix2 g s))

/-- The new cell state: the old one through the forget gate plus the candidate through the input gate. -/
def newCell : SAct.Idx → EReal := fun i =>
  c i * Ideal.logistic (gate x h Wx bx Wh bh 0 (i 0) (i 1))
    + Ideal.logistic (gate x h Wx bx Wh bh 1 (i 0) (i 1)) * Ideal.tanh (gate x h Wx bx Wh bh 2 (i 0) (i 1))

/-- The new hidden state: the squashed new cell state through the output gate. -/
def newHidden : SAct.Idx → EReal := fun i =>
  Ideal.tanh (newCell x c h Wx bx Wh bh i) * Ideal.logistic (gate x h Wx bx Wh bh 3 (i 0) (i 1))

/-- The pre-activation with both matrix products summed first (activation times weight) and the biases added after:
    the same extended real, by commutativity and associativity alone. -/
theorem gate_products_first (g : Fin 4) (b : Fin 16384) (s : Fin 1024) :
    (((∑ k : Fin 1024, x (ix2 b k) * Wx (ix3 g s k)) + (∑ k : Fin 1024, h (ix2 b k) * Wh (ix3 g s k))) + bx (ix2 g s))
      + bh (ix2 g s) = gate x h Wx bx Wh bh g b s := by
  unfold gate
  rw [Finset.sum_congr rfl fun k _ => mul_comm (x (ix2 b k)) (Wx (ix3 g s k)),
    Finset.sum_congr rfl fun k _ => mul_comm (h (ix2 b k)) (Wh (ix3 g s k))]
  rw [add_assoc, add_add_add_comm]

/-- The word of the float one denotes the real one. -/
theorem one_word : Ideal.ofBits .f32 0x3F800000#32 = 1 := by
  simp [Ideal.ofBits, Ideal.ieee, -EReal.coe_mul]; norm_num

/-- The logistic function spelt out with host operations — one over one plus the exponential of the negation, the ones
    as float words — is the logistic function. -/
theorem logistic_spelt (y : EReal) :
    Ideal.div (Ideal.ofBits .f32 0x3F800000#32) (Ideal.ofBits .f32 0x3F800000#32 + Ideal.exp (-y)) = Ideal.logistic y := by
  rw [one_word]; rfl

end Cert.LstmCell

end
-- ==== Proof.KernelCell.lean ====
/-
  What the kernel region leaves in its two result arrays: the LSTM cell of the specification.

  Grid point `t` holds rows `256·t … 256·t + 255` of the input, the hidden state and the cell state, and the whole packed
  weights and biases. Its pre-activation block at row `r`, column `g · 1024 + s` is the specification's gate `g` at batch row
  `256·t + r`, unit `s`: the block's rows are the arrays' rows, the packed column is the tensor's `[g, s, ·]`, and the
  two groupings of the sum agree. The four 1024-column slices are the four gates, so what the point writes back to either
  result is that result's block of `newCell` / `newHidden`; the 64 blocks tile the 16384 rows, so each result array ends
  holding the whole function.
-/
import proofs.«118456_j11759620456639_1_alg».proof.Proof.Gen.KernelIdeal.Value
import proofs.«118456_j11759620456639_1_alg».proof.Proof.KernelGates
import proofs.«118456_j11759620456639_1_alg».proof.Proof.HostPacking
import proofs.«118456_j11759620456639_1_alg».proof.Proof.LstmSpec

noncomputable section

namespace Cert.KernelIdeal.Cell

open Cert.KernelIdeal Cert.KernelIdeal.Gen Idealize.ShloMosaic Idealize.ShloMosaic.TcCoe Idealize.ShloMosaic.ValueIdx Idealize.SL.Sem
open Idealize.ShloMosaic.Pipeline (Dat)
open Cert.LstmCell Cert.KernelIdeal.Packing

/-! ## One pre-activation entry from the blocks, over variables -/

/-- If the activation blocks' row `r` is the arrays' row `b`, and the packed operands' column `n` is gate `g`, unit `s` of
    the tensors, the body's pre-activation at `[r, n]` is the specification's gate. -/
theorem gate_of_blocks
    (x h : FVec Ideal S16384x1024 .f32) (Wx Wh : FVec Ideal S4x1024x1024 .f32) (bx bh : FVec Ideal S4x1024 .f32)
    (xb hb : Vec Ideal S256x1024 .f32) (wx wh : Vec Ideal S1024x4096 .bf16) (bxr bhr : Vec Ideal S1x4096 .f32)
    (g : Fin 4) (b : Fin 16384) (s : Fin 1024) (r : Fin 256) (n : Fin 4096) (q : S256x4096.Idx) (hq : q = ix2 r n)
    (hx : ∀ k : Fin 1024, xb (ix2 r k) = x (ix2 b k)) (hh : ∀ k : Fin 1024, hb (ix2 r k) = h (ix2 b k))
    (hwx : ∀ k : Fin 1024, wx (ix2 k n) = Wx (ix3 g s k)) (hwh : ∀ k : Fin 1024, wh (ix2 k n) = Wh (ix3 g s k))
    (hbx : bxr (ix2 (0 : Fin 1) n) = bx (ix2 g s)) (hbh : bhr (ix2 (0 : Fin 1) n) = bh (ix2 g s)) :
    k0_pay1 (F := Ideal) xb hb wx wh bxr bhr q = gate x h Wx bx Wh bh g b s := by
  subst hq
  rw [Gates.preact_apply, hbx, hbh]
  simp only [hx, hh, hwx, hwh]
  exact gate_products_first x h Wx bx Wh bh g b s

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 64 grid points: the three activations and both results move together down the rows,
    one block per point; the packed operands stay at their one block. -/
theorem index_maps : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_8.index t (0 : Fin 2) = win0_7.index t (0 : Fin 2) ∧ win0_8.index t (1 : Fin 2) = 0
    ∧ win0_7.index t (1 : Fin 2) = 0 ∧ win0_7.index t (0 : Fin 2) ≤ 63 :=
  (by decide +kernel : ∀ t : Fin grid0.N, _)

/-- Every block of 256 rows is some point's. -/
theorem row_block_onto : ∀ q0 : Fin 64, ∃ t : Fin cfg0.N, win0_7.index t = ![q0.val, 0] ∧ win0_8.index t = ![q0.val, 0] :=
  (by decide +kernel : ∀ q0 : Fin 64, ∃ t : Fin grid0.N, win0_7.index t = ![q0.val, 0] ∧ win0_8.index t = ![q0.val, 0])

/-- The specification's gate at the arrays the region finds. -/
abbrev gateAt (c : Dev nD) (g : Fin 4) (b : Fin 16384) (s : Fin 1024) : EReal :=
  gate (V m c main_arg0) (V m c main_arg2) (m ((c : Thread nD τ).loc main_arg3)) (m ((c : Thread nD τ).loc main_arg4))
    (m ((c : Thread nD τ).loc main_arg5)) (m ((c : Thread nD τ).loc main_arg6)) g b s

/-- Point `t`'s pre-activation block at row `r`, column `g · 1024 + s`, is gate `g` at the point's batch row, unit `s`. -/
theorem point_gate (c : Dev nD) (t : Fin cfg0.N) (g : Fin 4) (b : Fin 16384) (s : Fin 1024) (r : Fin 256) (n : Fin 4096)
    (q : S256x4096.Idx) (hq : q = ix2 r n) (hn : n.val = g.val * 1024 + s.val) (hb : b.val = win0_7.index t (0 : Fin 2) * 256 + r.val) :
    k0_pay1 (F := Ideal) (iblk m c 0 t) (iblk m c 1 t) (iblk m c 3 t) (iblk m c 4 t) (iblk m c 5 t) (iblk m c 6 t) q
      = gateAt m c g b s := by
  obtain ⟨e00, e01, e10, e11, e20, e21, e30, e31, e40, e41, e50, e51, e60, e61, e80, e81, e71, e7le⟩ := index_maps t
  have hr : r.val < 256 := r.isLt
  have hnlt : n.val < 4096 := n.isLt
  refine gate_of_blocks (V m c main_arg0) (V m c main_arg2) (m ((c : Thread nD τ).loc main_arg3)) (m ((c : Thread nD τ).loc main_arg5))
    (m ((c : Thread nD τ).loc main_arg4)) (m ((c : Thread nD τ).loc main_arg6))
    (iblk m c 0 t) (iblk m c 1 t) (iblk m c 3 t) (iblk m c 4 t) (iblk m c 5 t) (iblk m c 6 t) g b s r n q hq ?_ ?_ ?_ ?_ ?_ ?_
  · intro k
    have hk : k.val < 1024 := k.isLt
    show V m c main_arg0 (((cfg0.win 0).blk t).view.emb (ix2 r k)) = V m c main_arg0 (ix2 b k)
    refine congrArg (V m c main_arg0) (funext fun a => Fin.ext ?_)
    match a with
    | ⟨0, _⟩ => show win0_0.index t (0 : Fin 2) * 256 + 1 * r.val = b.val; omega
    | ⟨1, _⟩ => show win0_0.index t (1 : Fin 2) * 1024 + 1 * k.val = k.val; omega
  · intro k
    have hk : k.val < 1024 := k.isLt
    show V m c main_arg2 (((cfg0.win 1).blk t).view.emb (ix2 r k)) = V m c main_arg2 (ix2 b k)
    refine congrArg (V m c main_arg2) (funext fun a => Fin.ext ?_)
    match a with
    | ⟨0, _⟩ => show win0_1.index t (0 : Fin 2) * 256 + 1 * r.val = b.val; omega
    | ⟨1, _⟩ => show win0_1.index t (1 : Fin 2) * 1024 + 1 * k.val = k.val; omega
  · intro k
    have hk : k.val < 1024 := k.isLt
    refine Eq.trans ?_ (packWeight_apply (m ((c : Thread nD τ).loc main_arg3)) k g s n hn)
    refine Eq.trans ?_ (congrFun (V_packedWx m c) (ix2 k n))
    show V m c main_v2 (((cfg0.win 3).blk t).view.emb (ix2 k n)) = V m c main_v2 (ix2 k n)
    refine congrArg (V m c main_v2) (funext fun a => Fin.ext ?_)
    match a with
    | ⟨0, _⟩ => show win0_3.index t (0 : Fin 2) * 1024 + 1 * k.val = k.val; omega
    | ⟨1, _⟩ => show win0_3.index t (1 : Fin 2) * 4096 + 1 * n.val = n.val; omega
  · intro k
    have hk : k.val < 1024 := k.isLt
    refine Eq.trans ?_ (packWeight_apply (m ((c : Thread nD τ).loc main_arg5)) k g s n hn)
    refine Eq.trans ?_ (congrFun (V_packedWh m c) (ix2 k n))
    show V m c main_v5 (((cfg0.win 4).blk t).view.emb (ix2 k n)) = V m c main_v5 (ix2 k n)
    refine congrArg (V m c main_v5) (funext fun a => Fin.ext ?_)
    match a with
    | ⟨0, _⟩ => show win0_4.index t (0 : Fin 2) * 1024 + 1 * k.val = k.val; omega
    | ⟨1, _⟩ => show win0_4.index t (1 : Fin 2) * 4096 + 1 * n.val = n.val; omega
  · refine Eq.trans ?_ (packBias_apply (m ((c : Thread nD τ).loc main_arg4)) g s n hn)
    refine Eq.trans ?_ (congrFun (V_packedBx m c) (ix2 (0 : Fin 1) n))
    show V m c main_v6 (((cfg0.win 5).blk t).view.emb (ix2 (0 : Fin 1) n)) = V m c main_v6 (ix2 (0 : Fin 1) n)
    refine congrArg (V m c main_v6) (funext fun a => Fin.ext ?_)
    match a with
    | ⟨0, _⟩ => show win0_5.index t (0 : Fin 2) * 1 + 1 * 0 = 0; omega
    | ⟨1, _⟩ => show win0_5.index t (1 : Fin 2) * 4096 + 1 * n.val = n.val; omega
  · refine Eq.trans ?_ (packBias_apply (m ((c : Thread nD τ).loc main_arg6)) g s n hn)
    refine Eq.trans ?_ (congrFun (V_packedBh m c) (ix2 (0 : Fin 1) n))
    show V m c main_v7 (((cfg0.win 6).blk t).view.emb (ix2 (0 : Fin 1) n)) = V m c main_v7 (ix2 (0 : Fin 1) n)
    refine congrArg (V m c main_v7) (funext fun a => Fin.ext ?_)
    match a with
    | ⟨0, _⟩ => show win0_6.index t (0 : Fin 2) * 1 + 1 * 0 = 0; omega
    | ⟨1, _⟩ => show win0_6.index t (1 : Fin 2) * 4096 + 1 * n.val = n.val; omega

end Cert.KernelIdeal.Cell

end
-- ==== Proof.KernelResults.lean ====
/-
  The two result arrays after the region, and the kernel program's run.

  What grid point `t` writes back to the first result is block `t` of `newCell` of the arrays the region finds, and to the
  second block `t` of `newHidden`: the body's block, index by index, is the cell-state block times the logistic of the
  forget-gate slice plus the logistic of the input-gate slice times the hyperbolic tangent of the candidate slice (and, for
  the second result, the hyperbolic tangent of that times the logistic of the output-gate slice), each slice entry a gate
  of the specification at the point's batch row. The 64 blocks of 256 rows cover all 16384 rows, so each array ends at
  the whole function; and the region finds the three activations as launched.
-/
import proofs.«118456_j11759620456639_1_alg».proof.Proof.KernelCell

noncomputable section

namespace Cert.KernelIdeal.Cell

open Cert.KernelIdeal Cert.KernelIdeal.Gen Idealize.ShloMosaic Idealize.ShloMosaic.TcCoe Idealize.ShloMosaic.ValueIdx Idealize.SL.Sem
open Idealize.ShloMosaic.Pipeline (Dat)
open Cert.LstmCell Cert.KernelIdeal.Packing

variable (m : (ℓ : Loc nD τ sig) → Buf (Elt Ideal) ℓ) (ρ : Dev nD → PrngReg)

/-- The specification's new cell state at the arrays the region finds. -/
abbrev cellAt (c : Dev nD) : S16384x1024.Idx → EReal :=
  newCell (V m c main_arg0) (V m c main_arg1) (V m c main_arg2) (m ((c : Thread nD τ).loc main_arg3)) (m ((c : Thread nD τ).loc main_arg4))
    (m ((c : Thread nD τ).loc main_arg5)) (m ((c : Thread nD τ).loc main_arg6))

/-- The specification's new hidden state at the arrays the region finds. -/
abbrev hiddenAt (c : Dev nD) : S16384x1024.Idx → EReal :=
  newHidden (V m c main_arg0) (V m c main_arg1) (V m c main_arg2) (m ((c : Thread nD τ).loc main_arg3)) (m ((c : Thread nD τ).loc main_arg4))
    (m ((c : Thread nD τ).loc main_arg5)) (m ((c : Thread nD τ).loc main_arg6))

/-- What point `t` writes back to the first result is block `t` of the new cell state. -/
theorem flushed_cell (c : Dev nD) (t : Fin cfg0.N) :
    (dats m 0 c).flushed 7 t = ((cfg0.win 7).blk t).view.read (Elt Ideal) (cellAt m c) := by
  rw [Value.flushed7]
  unfold out0_7
  simp only [View.ld_unit_zero (S := S256x1024) zero_offsets, View.ld_unit_zero (S := S1024x4096) zero_offsets, View.ld_unit_zero (S := S1x4096) zero_offsets]
  funext j
  obtain ⟨e00, e01, e10, e11, e20, e21, e30, e31, e40, e41, e50, e51, e60, e61, e80, e81, e71, e7le⟩ := index_maps t
  have hj0 : (j 0).val < 256 := (j 0).isLt
  have hj1 : (j 1).val < 1024 := (j 1).isLt
  have hi0 : ((((cfg0.win 7).blk t).view.emb j) 0).val = win0_7.index t (0 : Fin 2) * 256 + 1 * (j 0).val := rfl
  have hi1 : ((((cfg0.win 7).blk t).view.emb j) 1).val = win0_7.index t (1 : Fin 2) * 1024 + 1 * (j 1).val := rfl
  show View.canon (Val := Elt Ideal) (s := S256x1024) (e := .f32) [⟨r0_0, k0_pay2 (iblk m c 0 t) (iblk m c 1 t) (iblk m c 3 t) (iblk m c 4 t) (iblk m c 5 t) (iblk m c 6 t) (iblk m c 2 t)⟩] j
    = cellAt m c (((cfg0.win 7).blk t).view.emb j)
  refine (Value.canon7_eq (iblk m c 2 t) (iblk m c 0 t) (iblk m c 1 t) (iblk m c 3 t) (iblk m c 4 t) (iblk m c 5 t) (iblk m c 6 t) j).trans ?_
  have hc : iblk m c 2 t (Value.ix7_0 j) = V m c main_arg1 (((cfg0.win 7).blk t).view.emb j) := by
    show V m c main_arg1 (((cfg0.win 2).blk t).view.emb (Value.ix7_0 j)) = _
    refine congrArg (V m c main_arg1) (funext fun a => Fin.ext ?_)
    match a with
    | ⟨0, _⟩ => show win0_2.index t (0 : Fin 2) * 256 + 1 * (j 0).val = win0_7.index t (0 : Fin 2) * 256 + 1 * (j 0).val; omega
    | ⟨1, _⟩ => show win0_2.index t (1 : Fin 2) * 1024 + 1 * (j 1).val = win0_7.index t (1 : Fin 2) * 1024 + 1 * (j 1).val; omega
  have g0 := point_gate m c t 0 ((((cfg0.win 7).blk t).view.emb j) 0) ((((cfg0.win 7).blk t).view.emb j) 1) ⟨(j 0).val, hj0⟩ ⟨(j 1).val + 0, by omega⟩
    (Value.ix7_1 j) (funext fun a => by match a with | ⟨0, _⟩ => rfl | ⟨1, _⟩ => rfl)
    (by show (j 1).val + 0 = 0 * 1024 + ((((cfg0.win 7).blk t).view.emb j) 1).val; omega)
    (by show ((((cfg0.win 7).blk t).view.emb j) 0).val = win0_7.index t (0 : Fin 2) * 256 + (j 0).val; omega)
  have g1 := point_gate m c t 1 ((((cfg0.win 7).blk t).view.emb j) 0) ((((cfg0.win 7).blk t).view.emb j) 1) ⟨(j 0).val, hj0⟩ ⟨(j 1).val + 1024, by omega⟩
    (Value.ix7_2 j) (funext fun a => by match a with | ⟨0, _⟩ => rfl | ⟨1, _⟩ => rfl)
    (by show (j 1).val + 1024 = 1 * 1024 + ((((cfg0.win 7).blk t).view.emb j) 1).val; omega)
    (by show ((((cfg0.win 7).blk t).view.emb j) 0).val = win0_7.index t (0 : Fin 2) * 256 + (j 0).val; omega)
  have g2 := point_gate m c t 2 ((((cfg0.win 7).blk t).view.emb j) 0) ((((cfg0.win 7).blk t).view.emb j) 1) ⟨(j 0).val, hj0⟩ ⟨(j 1).val + 2048, by omega⟩
    (Value.ix7_3 j) (funext fun a => by match a with | ⟨0, _⟩ => rfl | ⟨1, _⟩ => rfl)
    (by show (j 1).val + 2048 = 2 * 1024 + ((((cfg0.win 7).blk t).view.emb j) 1).val; omega)
    (by show ((((cfg0.win 7).blk t).view.emb j) 0).val = win0_7.index t (0 : Fin 2) * 256 + (j 0).val; omega)
  show FloatOps.addf (FloatOps.mulf (iblk m c 2 t (Value.ix7_0 j)) (FloatOps.logistic (k0_pay1 (iblk m c 0 t) (iblk m c 1 t) (iblk m c 3 t) (iblk m c 4 t) (iblk m c 5 t) (iblk m c 6 t) (Value.ix7_1 j))))
      (FloatOps.mulf (FloatOps.logistic (k0_pay1 (iblk m c 0 t) (iblk m c 1 t) (iblk m c 3 t) (iblk m c 4 t) (iblk m c 5 t) (iblk m c 6 t) (Value.ix7_2 j)))
        (FloatOps.tanh (k0_pay1 (iblk m c 0 t) (iblk m c 1 t) (iblk m c 3 t) (iblk m c 4 t) (iblk m c 5 t) (iblk m c 6 t) (Value.ix7_3 j)))) = _
  rw [hc, g0, g1, g2]
  rfl

/-- What point `t` writes back to the second result is block `t` of the new hidden state. -/
theorem flushed_hidden (c : Dev nD) (t : Fin cfg0.N) :
    (dats m 0 c).flushed 8 t = ((cfg0.win 8).blk t).view.read (Elt Ideal) (hiddenAt m c) := by
  rw [Value.flushed8]
  unfold out0_8
  simp only [View.ld_unit_zero (S := S256x1024) zero_offsets, View.ld_unit_zero (S := S1024x4096) zero_offsets, View.ld_unit_zero (S := S1x4096) zero_offsets]
  funext j
  obtain ⟨e00, e01, e10, e11, e20, e21, e30, e31, e40, e41, e50, e51, e60, e61, e80, e81, e71, e7le⟩ := index_maps t
  have hj0 : (j 0).val < 256 := (j 0).isLt
  have hj1 : (j 1).val < 1024 := (j 1).isLt
  have hi0 : ((((cfg0.win 8).blk t).view.emb j) 0).val = win0_8.index t (0 : Fin 2) * 256 + 1 * (j 0).val := rfl
  have hi1 : ((((cfg0.win 8).blk t).view.emb j) 1).val = win0_8.index t (1 : Fin 2) * 1024 + 1 * (j 1).val := rfl
  show View.canon (Val := Elt Ideal) (s := S256x1024) (e := .f32) [⟨r0_0, k0_pay3 (iblk m c 0 t) (iblk m c 1 t) (iblk m c 3 t) (iblk m c 4 t) (iblk m c 5 t) (iblk m c 6 t) (iblk m c 2 t)⟩] j
    = hiddenAt m c (((cfg0.win 8).blk t).view.emb j)
  refine (Value.canon8_eq (iblk m c 2 t) (iblk m c 0 t) (iblk m c 1 t) (iblk m c 3 t) (iblk m c 4 t) (iblk m c 5 t) (iblk m c 6 t) j).trans ?_
  have hc : iblk m c 2 t (Value.ix8_0 j) = V m c main_arg1 (((cfg0.win 8).blk t).view.emb j) := by
    show V m c main_arg1 (((cfg0.win 2).blk t).view.emb (Value.ix8_0 j)) = _
    refine congrArg (V m c main_arg1) (funext fun a => Fin.ext ?_)
    match a with
    | ⟨0, _⟩ => show win0_2.index t (0 : Fin 2) * 256 + 1 * (j 0).val = win0_8.index t (0 : Fin 2) * 256 + 1 * (j 0).val; omega
    | ⟨1, _⟩ => show win0_2.index t (1 : Fin 2) * 1024 + 1 * (j 1).val = win0_8.index t (1 : Fin 2) * 1024 + 1 * (j 1).val; omega
  have g0 := point_gate m c t 0 ((((cfg0.win 8).blk t).view.emb j) 0) ((((cfg0.win 8).blk t).view.emb j) 1) ⟨(j 0).val, hj0⟩ ⟨(j 1).val + 0, by omega⟩
    (Value.ix8_1 j) (funext fun a => by match a with | ⟨0, _⟩ => rfl | ⟨1, _⟩ => rfl)
    (by show (j 1).val + 0 = 0 * 1024 + ((((cfg0.win 8).blk t).view.emb j) 1).val; omega)
    (by show ((((cfg0.win 8).blk t).view.emb j) 0).val = win0_7.index t (0 : Fin 2) * 256 + (j 0).val; omega)
  have g1 := point_gate m c t 1 ((((cfg0.win 8).blk t).view.emb j) 0) ((((cfg0.win 8).blk t).view.emb j) 1) ⟨(j 0).val, hj0⟩ ⟨(j 1).val + 1024, by omega⟩
    (Value.ix8_2 j) (funext fun a => by match a with | ⟨0, _⟩ => rfl | ⟨1, _⟩ => rfl)
    (by show (j 1).val + 1024 = 1 * 1024 + ((((cfg0.win 8).blk t).view.emb j) 1).val; omega)
    (by show ((((cfg0.win 8).blk t).view.emb j) 0).val = win0_7.index t (0 : Fin 2) * 256 + (j 0).val; omega)
  have g2 := point_gate m c t 2 ((((cfg0.win 8).blk t).view.emb j) 0) ((((cfg0.win 8).blk t).view.emb j) 1) ⟨(j 0).val, hj0⟩ ⟨(j 1).val + 2048, by omega⟩
    (Value.ix8_3 j) (funext fun a => by match a with | ⟨0, _⟩ => rfl | ⟨1, _⟩ => rfl)
    (by show (j 1).val + 2048 = 2 * 1024 + ((((cfg0.win 8).blk t).view.emb j) 1).val; omega)
    (by show ((((cfg0.win 8).blk t).view.emb j) 0).val = win0_7.index t (0 : Fin 2) * 256 + (j 0).val; omega)
  have g3 := point_gate m c t 3 ((((cfg0.win 8).blk t).view.emb j) 0) ((((cfg0.win 8).blk t).view.emb j) 1) ⟨(j 0).val, hj0⟩ ⟨(j 1).val + 3072, by omega⟩
    (Value.ix8_4 j) (funext fun a => by match a with | ⟨0, _⟩ => rfl | ⟨1, _⟩ => rfl)
    (by show (j 1).val + 3072 = 3 * 1024 + ((((cfg0.win 8).blk t).view.emb j) 1).val; omega)
    (by show ((((cfg0.win 8).blk t).view.emb j) 0).val = win0_7.index t (0 : Fin 2) * 256 + (j 0).val; omega)
  show FloatOps.mulf (FloatOps.tanh (FloatOps.addf (FloatOps.mulf (iblk m c 2 t (Value.ix8_0 j)) (FloatOps.logistic (k0_pay1 (iblk m c 0 t) (iblk m c 1 t) (iblk m c 3 t) (iblk m c 4 t) (iblk m c 5 t) (iblk m c 6 t) (Value.ix8_1 j))))
      (FloatOps.mulf (FloatOps.logistic (k0_pay1 (iblk m c 0 t) (iblk m c 1 t) (iblk m c 3 t) (iblk m c 4 t) (iblk m c 5 t) (iblk m c 6 t) (Value.ix8_2 j)))
        (FloatOps.tanh (k0_pay1 (iblk m c 0 t) (iblk m c 1 t) (iblk m c 3 t) (iblk m c 4 t) (iblk m c 5 t) (iblk m c 6 t) (Value.ix8_3 j))))))
      (FloatOps.logistic (k0_pay1 (iblk m c 0 t) (iblk m c 1 t) (iblk m c 3 t) (iblk m c 4 t) (iblk m c 5 t) (iblk m c 6 t) (Value.ix8_4 j))) = _
  rw [hc, g0, g1, g2, g3]
  rfl

/-- An array index is in point `t`'s block of the first result iff each coordinate is in the block's range. -/
theorem mem_block_cell (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8_0).slice (win0_7.rect t)).set ↔ _
  rw [View.set_slice_whole, Rect.mem_set_unit]
  exact Iff.rfl

/-- The same for the second result. -/
theorem mem_block_hidden (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v8_1).slice (win0_8.rect t)).set ↔ _
  rw [View.set_slice_whole, Rect.mem_set_unit]
  exact Iff.rfl

/-- Every index of the first result is in the block of the point that owns its 256 rows. -/
theorem cover_cell (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨t, ht, -⟩ := row_block_onto ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [mem_block_cell]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The same for the second result. -/
theorem cover_hidden (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨t, -, ht⟩ := row_block_onto ⟨(i 0).val / 256, by omega⟩
  have q0 : win0_8.index t (0 : Fin 2) = (i 0).val / 256 := congrFun ht 0
  have q1 : win0_8.index t (1 : Fin 2) = 0 := congrFun ht 1
  refine ⟨t, flush0_8 t, ?_⟩
  rw [mem_block_hidden]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-- The first result array after the run is the new cell state of the launch contents. -/
theorem final_cell (c : Dev nD) : (dats m 0 c).arrAt 7 cfg0.N
    = newCell (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine ((dats m 0 c).arrAt_eq_of_cover 7 (cellAt m c) (fun t _ => flushed_cell m c t) cover_cell).trans ?_
  show newCell (V m c main_arg0) (V m c main_arg1) (V m c main_arg2) _ _ _ _ = _
  rw [V_main_arg0, V_main_arg1, V_main_arg2]

/-- The second result array after the run is the new hidden state of the launch contents. -/
theorem final_hidden (c : Dev nD) : (dats m 0 c).arrAt 8 cfg0.N
    = newHidden (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine ((dats m 0 c).arrAt_eq_of_cover 8 (hiddenAt m c) (fun t _ => flushed_hidden m c t) cover_hidden).trans ?_
  show newHidden (V m c main_arg0) (V m c main_arg1) (V m c main_arg2) _ _ _ _ = _
  rw [V_main_arg0, V_main_arg1, V_main_arg2]

/-- The kernel program's run: every weakly fair execution terminates with the two results at the specification's
    functions of the launch contents, the arguments unchanged. -/
theorem run : θ_run defs (onTc (τ := τ) (main (F := Ideal))) ⟨m, fun _ => 0, ρ⟩ fun r => ∀ c : Dev nD,
      r.2.mem ((c : Thread nD τ).loc main_v8_0) = newCell (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c : Thread nD τ).loc main_v8_1) = newHidden (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_cell m c), (h c).2.1.trans (final_hidden m c), (h c).2.2⟩)
    (Value.run_blocks m ρ)

end Cert.KernelIdeal.Cell

end
-- ==== Proof.ReferenceCell.lean ====
/-
  The reference program computes the LSTM cell of the specification.

  Read one operation at a time, the reference's pre-activation tensor (gate × batch row × state unit) is, at `[g, b, s]`,
  the specification's `gate … g b s`: each matrix product is the sum over the contracted feature, transposed into place,
  and each bias is broadcast along the batch rows. Gate `g`'s slice, reshaped to batch row × state unit, reads that
  tensor at `[g, b, s]`. The logistic function is spelt `1 / (1 + exp (-y))` with the ones as float words; on the extended
  reals that is the logistic function. So the two results are `newCell` and `newHidden`.
-/
import proofs.«118456_j11759620456639_1_alg».proof.Proof.Gen.ReferenceIdeal.Read
import proofs.«118456_j11759620456639_1_alg».proof.Proof.LstmSpec

noncomputable section

namespace Cert.ReferenceIdeal.Cell

open Cert.ReferenceIdeal Cert.ReferenceIdeal.Read Idealize.ShloMosaic Idealize.ShloMosaic.ValueIdx Cert.LstmCell

variable (x0 x1 x2 : (⟨S16384x1024, .f32⟩ : BufTy).Contents (Elt Ideal)) (x3 : (⟨S4x1024x1024, .f32⟩ : BufTy).Contents (Elt Ideal))
  (x4 : (⟨S4x1024, .f32⟩ : BufTy).Contents (Elt Ideal)) (x5 : (⟨S4x1024x1024, .f32⟩ : BufTy).Contents (Elt Ideal))
  (x6 : (⟨S4x1024, .f32⟩ : BufTy).Contents (Elt Ideal))

/-- The pre-activation tensor at gate, batch row, state unit: both affine maps, added. -/
theorem preact_apply (j : S4x16384x1024.Idx) :
    val_main_v10 (F := Ideal) x0 x2 x3 x4 x5 x6 j = gate x0 x2 x3 x4 x5 x6 (j 0) (j 1) (j 2) := by
  have eWx : ∀ k : Fin 1024, lidx_main_v0 (idx_main_v1 j) k = ix3 (j 0) (j 2) k := fun k => funext fun a => by
    match a with | ⟨0, _⟩ => rfl | ⟨1, _⟩ => rfl | ⟨2, _⟩ => rfl
  have eX : ∀ k : Fin 1024, ridx_main_v0 (idx_main_v1 j) k = ix2 (j 1) k := fun k => funext fun a => by
    match a with | ⟨0, _⟩ => rfl | ⟨1, _⟩ => rfl
  have eWh : ∀ k : Fin 1024, lidx_main_v5 (idx_main_v6 j) k = ix3 (j 0) (j 2) k := fun k => funext fun a => by
    match a with | ⟨0, _⟩ => rfl | ⟨1, _⟩ => rfl | ⟨2, _⟩ => rfl
  have eH : ∀ k : Fin 1024, ridx_main_v5 (idx_main_v6 j) k = ix2 (j 1) k := fun k => funext fun a => by
    match a with | ⟨0, _⟩ => rfl | ⟨1, _⟩ => rfl
  have eBx : idx_main_v2 (idx_main_v3 j) = ix2 (j 0) (j 2) := funext fun a => by
    match a with | ⟨0, _⟩ => rfl | ⟨1, _⟩ => rfl
  have eBh : idx_main_v7 (idx_main_v8 j) = ix2 (j 0) (j 2) := funext fun a => by
    match a with | ⟨0, _⟩ => rfl | ⟨1, _⟩ => rfl
  rw [val_main_v10_apply, val_main_v4_apply, val_main_v9_apply, val_main_v1_apply, val_main_v3_apply, val_main_v2_apply,
    val_main_v6_apply, val_main_v8_apply, val_main_v7_apply, val_main_v0_apply, val_main_v5_apply]
  simp only [eWx, eX, eWh, eH, eBx, eBh]
  rfl

/-- Gate `g`'s slice of the pre-activation tensor, reshaped, reads the tensor at that gate. -/
theorem slice0_idx (i : S16384x1024.Idx) : idx_main_v11 (idx_main_v12 i) = ix3 (n0 := 4) (n1 := 16384) (n2 := 1024) 0 (i 0) (i 1) := by
  have h0 : (i 0).val < 16384 := (i 0).isLt
  have h1 : (i 1).val < 1024 := (i 1).isLt
  funext a; apply Fin.ext
  match a with
  | ⟨0, _⟩ => rfl
  | ⟨1, _⟩ => show ((i 0).val * 1024 + (i 1).val) / 1024 % 16384 = (i 0).val; omega
  | ⟨2, _⟩ => show ((i 0).val * 1024 + (i 1).val) % 1024 = (i 1).val; omega
theorem slice1_idx (i : S16384x1024.Idx) : idx_main_v19 (idx_main_v20 i) = ix3 (n0 := 4) (n1 := 16384) (n2 := 1024) 1 (i 0) (i 1) := by
  have h0 : (i 0).val < 16384 := (i 0).isLt
  have h1 : (i 1).val < 1024 := (i 1).isLt
  funext a; apply Fin.ext
  match a with
  | ⟨0, _⟩ => rfl
  | ⟨1, _⟩ => show ((i 0).val * 1024 + (i 1).val) / 1024 % 16384 = (i 0).val; omega
  | ⟨2, _⟩ => show ((i 0).val * 1024 + (i 1).val) % 1024 = (i 1).val; omega
theorem slice2_idx (i : S16384x1024.Idx) : idx_main_v27 (idx_main_v28 i) = ix3 (n0 := 4) (n1 := 16384) (n2 := 1024) 2 (i 0) (i 1) := by
  have h0 : (i 0).val < 16384 := (i 0).isLt
  have h1 : (i 1).val < 1024 := (i 1).isLt
  funext a; apply Fin.ext
  match a with
  | ⟨0, _⟩ => rfl
  | ⟨1, _⟩ => show ((i 0).val * 1024 + (i 1).val) / 1024 % 16384 = (i 0).val; omega
  | ⟨2, _⟩ => show ((i 0).val * 1024 + (i 1).val) % 1024 = (i 1).val; omega
theorem slice3_idx (i : S16384x1024.Idx) : idx_main_v34 (idx_main_v35 i) = ix3 (n0 := 4) (n1 := 16384) (n2 := 1024) 3 (i 0) (i 1) := by
  have h0 : (i 0).val < 16384 := (i 0).isLt
  have h1 : (i 1).val < 1024 := (i 1).isLt
  funext a; apply Fin.ext
  match a with
  | ⟨0, _⟩ => rfl
  | ⟨1, _⟩ => show ((i 0).val * 1024 + (i 1).val) / 1024 % 16384 = (i 0).val; omega
  | ⟨2, _⟩ => show ((i 0).val * 1024 + (i 1).val) % 1024 = (i 1).val; omega

/-- The reference's first result is the new cell state. -/
theorem newCell_eq : val_main_v32 (F := Ideal) x0 x1 x2 x3 x4 x5 x6 = newCell x0 x1 x2 x3 x4 x5 x6 := by
  funext i
  simp only [val_main_v32_apply, val_main_v31_apply, val_main_v30_apply, val_main_v29_apply, val_main_v28_apply, val_main_v27_apply,
    val_main_v26_apply, val_main_v25_apply, val_main_cst_2_apply, val_main_v24_apply, val_main_v23_apply, val_main_cst_1_apply,
    val_main_v22_apply, val_main_v21_apply, val_main_v20_apply, val_main_v19_apply,
    val_main_v18_apply, val_main_v17_apply, val_main_cst_0_apply, val_main_v16_apply, val_main_v15_apply, val_main_cst_apply,
    val_main_v14_apply, val_main_v13_apply, val_main_v12_apply, val_main_v11_apply,
    slice0_idx, slice1_idx, slice2_idx]
  rw [preact_apply, preact_apply, preact_apply]
  unfold newCell
  rw [← logistic_spelt (gate x0 x2 x3 x4 x5 x6 0 (i 0) (i 1)), ← logistic_spelt (gate x0 x2 x3 x4 x5 x6 1 (i 0) (i 1))]
  rfl

/-- The reference's second result is the new hidden state. -/
theorem newHidden_eq : val_main_v42 (F := Ideal) x0 x1 x2 x3 x4 x5 x6 = newHidden x0 x1 x2 x3 x4 x5 x6 := by
  funext i
  rw [val_main_v42_apply, val_main_v33_apply, newCell_eq]
  simp only [val_main_v41_apply, val_main_v40_apply, val_main_cst_4_apply, val_main_v39_apply, val_main_v38_apply, val_main_cst_3_apply,
    val_main_v37_apply, val_main_v36_apply, val_main_v35_apply, val_main_v34_apply, slice3_idx]
  rw [preact_apply]
  unfold newHidden
  rw [← logistic_spelt (gate x0 x2 x3 x4 x5 x6 3 (i 0) (i 1))]
  rfl

end Cert.ReferenceIdeal.Cell

end
-- ==== Proof.lean ====
/-
  An LSTM cell as one fused kernel against its two-einsum reference, over the extended reals.

  Both programs compute, for batch row `b`, gate `g` and state unit `s`, the pre-activation
  `a g b s = Σ_k Wx[g,s,k]·x[b,k] + bx[g,s] + Σ_k Wh[g,s,k]·h[b,k] + bh[g,s]`, then the new cell state
  `c·σ(a 0) + σ(a 1)·tanh(a 2)` and the new hidden state `tanh(c')·σ(a 3)` (Proof/LstmSpec.lean). The kernel packs the
  four gates along the columns of one 1024 × 4096 matrix per weight tensor and takes two matrix products per block of
  256 batch rows, adding the two biases afterwards; the reference contracts each weight tensor with the activations,
  adds each bias to its own product, and adds the two. The two groupings of the sum agree on the extended reals by
  commutativity and associativity alone, and the reference's spelt-out `1 / (1 + exp (-y))` is the kernel's logistic
  function, so no finiteness of the inputs is used: the precondition is never opened.

  Frames: the two kernel programs' are the generated frame certificates; the reference's is its generated run with the
  results dropped. The idealization rewrote nothing, so `preserves` is trivial. `algebraic`: the kernel's run ends with
  both results at `newCell` / `newHidden` of the launch contents (Proof/KernelResults.lean), the reference's run with its
  results at the same functions (Proof/ReferenceCell.lean), and the memories agree on the arguments.
-/
import proofs.«118456_j11759620456639_1_alg».proof.Defs
import proofs.«118456_j11759620456639_1_alg».proof.Proof.Gen.Kernel
import proofs.«118456_j11759620456639_1_alg».proof.Proof.Gen.Kernel.Frame
import proofs.«118456_j11759620456639_1_alg».proof.Proof.Gen.KernelIdeal
import proofs.«118456_j11759620456639_1_alg».proof.Proof.Gen.KernelIdeal.Frame
import proofs.«118456_j11759620456639_1_alg».proof.Proof.Gen.ReferenceIdeal
import proofs.«118456_j11759620456639_1_alg».proof.Proof.Gen.Pre_finite_inputs
import proofs.«118456_j11759620456639_1_alg».proof.Proof.Gen.ReferenceIdeal.Run
import proofs.«118456_j11759620456639_1_alg».proof.Proof.Gen.ReferenceIdeal.Read
import proofs.«118456_j11759620456639_1_alg».proof.Proof.KernelResults
import proofs.«118456_j11759620456639_1_alg».proof.Proof.ReferenceCell
import Idealize.ShloMosaic.Adequacy
import Idealize.ShloMosaic.Init

noncomputable section

namespace Cert.Proof

open Idealize.ShloMosaic Idealize.SL.Sem Cert.LstmCell

/-- The reference runs and leaves its arguments as they were: its run, the two results dropped. -/
theorem frame_reference [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- From memories agreeing on the seven arguments, both programs end with the new cell state and the new hidden state of
    the specification, as functions of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => newCell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => newHidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Cell.run m ρ, ?_⟩
  refine (θ_run Cert.ReferenceIdeal.defs _ _).mono (fun _ h c => ⟨?_, ?_, (h c).2.2⟩) (Cert.ReferenceIdeal.Value.run (F := Ideal) m' ρ')
  · refine (h c).1.trans ((Cert.ReferenceIdeal.Read.val_main_v32_eq _ _ _ _ _ _ _).trans ((Cert.ReferenceIdeal.Cell.newCell_eq _ _ _ _ _ _ _).trans ?_))
    obtain ⟨a0, a1, a2, a3, a4, a5, a6⟩ := hagree c
    rw [a0, a1, a2, a3, a4, a5, a6]
  · refine (h c).2.1.trans ((Cert.ReferenceIdeal.Read.val_main_v42_eq m' c).trans ((Cert.ReferenceIdeal.Cell.newHidden_eq _ _ _ _ _ _ _).trans ?_))
    obtain ⟨a0, a1, a2, a3, a4, a5, a6⟩ := hagree c
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
